-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S4096x1024, .bf16⟩
  | .hbm, ⟨8, _⟩ => ⟨S4096x1024, .bf16⟩
  | .hbm, ⟨9, _⟩ => ⟨S1x4096, .f32⟩
  | .hbm, ⟨10, _⟩ => ⟨S1x4096, .f32⟩
  | .hbm, ⟨11, _⟩ => ⟨S8192x1024, .f32⟩
  | .hbm, ⟨12, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.GateBlock.lean ====
/-
  The kernel body's gate pre-activations for one block of 128 rows, read at an index.

  The body multiplies the 128 × 1024 block of x by the whole packed wx (contracting the second axis of both, into a
  zero accumulator), the block of h by the whole wh likewise, adds the two products and then the two bias rows, each
  a [1, 4096] row broadcast down the 128 rows. On the extended reals a change of float format is the identity and a
  matrix product into zero is the plain sum of products, so at row p, packed column g the body's value is

      Σ_k xb[p,k]·wx[g,k] + Σ_k hb[p,k]·wh[g,k] + bx[0,g] + bh[0,g].
-/
import proofs.«168054_j9440338117029_1_alg».proof.Proof.Gen.KernelIdeal.Skeleton
import proofs.«168054_j9440338117029_1_alg».proof.Proof.LibKeepdims
import Idealize.ShloMosaic.Lib.ValueIdx
import Idealize.ShloMosaic.Lib.Pipeline.Value
import Idealize.ShloMosaic.PureOps.Ideal.Laws

noncomputable section

namespace Cert.KernelIdeal.GateBlock

open Cert.KernelIdeal Cert.KernelIdeal.Gen Idealize.ShloMosaic Idealize.ShloMosaic.ValueIdx

/-! ## The operand indices of the block product: rows of the left operand, rows of the right, the contracted
    second axis of both -/

theorem lhs_axis0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_axis1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_axis0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_axis1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- The block product into the zero accumulator at (p, g): the sum over k of left[p,k] · right[g,k]. -/
theorem block_product {φ₁ φ₂ : FTy} (l : FVec Ideal S128x1024 φ₁) (r : FVec Ideal S4096x1024 φ₂) (p : Fin 128) (g : Fin 4096) :
    matmul dot_S128x1024_S4096x1024_S128x4096_1_1_0_0_n_n none l r (constant (F := Ideal) S128x4096 .f32 0x00000000#32) (ix2 p g)
      = ∑ k : Fin 1024, l (ix2 p k) * r (ix2 g k) := by
  show FloatOps.matmul dot_S128x1024_S4096x1024_S128x4096_1_1_0_0_n_n none l r (constant (F := Ideal) S128x4096 .f32 0x00000000#32) (ix2 p g) = _
  rw [Ideal.matmul_constant_zero_apply, ← Equiv.sum_comp (ValueIdx.contrEquiv1 dot_S128x1024_S4096x1024_S128x4096_1_1_0_0_n_n 1024 rfl rfl).symm]
  refine Finset.sum_congr rfl fun k _ => ?_
  have hk := ValueIdx.contrEquiv1_symm_val dot_S128x1024_S4096x1024_S128x4096_1_1_0_0_n_n 1024 rfl rfl k
  have el : dot_S128x1024_S4096x1024_S128x4096_1_1_0_0_n_n.lhsIdx (ix2 p g) ((ValueIdx.contrEquiv1 dot_S128x1024_S4096x1024_S128x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S128x1024_S4096x1024_S128x4096_1_1_0_0_n_n.rhsIdx (ix2 p g) ((ValueIdx.contrEquiv1 dot_S128x1024_S4096x1024_S128x4096_1_1_0_0_n_n 1024 rfl rfl).symm k) = ix2 g k := funext fun a => Fin.ext (by
    match a with
    | ⟨0, _⟩ => exact rhs_axis0 _ _
    | ⟨1, _⟩ => exact (rhs_axis1 _ _).trans hk)
  rw [el, er]

/-- The body's pre-activations for the block, at row p and packed column g. -/
theorem pay1_apply (xb hb : Vec Ideal S128x1024 .f32) (wx wh : Vec Ideal S4096x1024 .bf16) (bx bh : Vec Ideal S1x4096 .f32)
    (p : Fin 128) (g : Fin 4096) :
    k0_pay1 (F := Ideal) xb hb wx wh bx bh (ix2 p g)
      = (∑ k : Fin 1024, xb (ix2 p k) * wx (ix2 g k)) + (∑ k : Fin 1024, hb (ix2 p k) * wh (ix2 g k))
          + bx (ix2 (0 : Fin 1) g) + bh (ix2 (0 : Fin 1) g) := by
  unfold k0_pay1
  show FloatOps.addf (FloatOps.addf (FloatOps.addf
        (matmul dot_S128x1024_S4096x1024_S128x4096_1_1_0_0_n_n none (truncf .bf16 xb bitsLt_bf16_f32) (shapeCast S4096x1024 wx shapeCasts_S4096x1024_S4096x1024) (constant (F := Ideal) S128x4096 .f32 0x00000000#32) (ix2 p g))
        (matmul dot_S128x1024_S4096x1024_S128x4096_1_1_0_0_n_n none (truncf .bf16 hb bitsLt_bf16_f32) (shapeCast S4096x1024 wh shapeCasts_S4096x1024_S4096x1024) (constant (F := Ideal) S128x4096 .f32 0x00000000#32) (ix2 p g)))
        (broadcastTo S128x4096 (shapeCast S1x4096 bx shapeCasts_S1x4096_S1x4096) broadcasts_S1x4096_S128x4096 (ix2 p g)))
        (broadcastTo S128x4096 (shapeCast S1x4096 bh shapeCasts_S1x4096_S1x4096) broadcasts_S1x4096_S128x4096 (ix2 p g)) = _
  rw [block_product, block_product, Cert.LibKeepdims.row_broadcast_apply, Cert.LibKeepdims.row_broadcast_apply,
    shapeCast_self wx, shapeCast_self wh]
  rfl

end Cert.KernelIdeal.GateBlock

end
-- ==== Proof.CellSpec.lean ====
/-
  The LSTM cell step as one function of the argument arrays, index by index, on the extended reals.

  With x, h, c : [8192, 1024], packed gate weights wx, wh : [4096, 1024] and biases bx, bh : [4096], the gate
  pre-activation at row n and packed column g is

      pre n g = Σ_k x[n,k]·wx[g,k] + Σ_k h[n,k]·wh[g,k] + bx[g] + bh[g],

  the packed columns being the four gates side by side: input at q, forget at q + 1024, cell at q + 2048 and
  output at q + 3072 for q < 1024. The new cell state and hidden state at (n, q) are

      cell   = σ(pre n (q+1024)) · c[n,q] + σ(pre n q) · tanh(pre n (q+2048)),
      hidden = σ(pre n (q+3072)) · tanh(cell),

  with σ the logistic function 1 / (1 + e^(-z)). A sum of four extended reals does not depend on the order in
  which its terms are added (addition of extended reals is commutative and associative, infinities included), which
  is the one law needed between the two orders the programs add the four terms in.
-/
import Idealize.ShloMosaic.PureOps.Ideal
import Idealize.ShloMosaic.Lib.ValueIdx

noncomputable section

namespace Cert.CellSpec

open Idealize.ShloMosaic Idealize.ShloMosaic.ValueIdx

/-- The shape of the activations and states. -/
abbrev Act : Shape := ⟨2, ![8192, 1024]⟩
/-- The shape of a packed weight matrix: the four gates' rows one after the other. -/
abbrev Wt : Shape := ⟨2, ![4096, 1024]⟩
/-- The shape of a packed bias. -/
abbrev Bias : Shape := ⟨1, ![4096]⟩

/-- Column q of the gate whose packed columns start at o. -/
abbrev gcol (o : Nat) (q : Fin 1024) (ho : o + 1024 ≤ 4096 := by decide) : Fin 4096 :=
  ⟨q.val + o, by have := q.isLt; omega⟩

variable (x h c : Act.Idx → EReal) (wx wh : Wt.Idx → EReal) (bx bh : Bias.Idx → EReal)

/-- The gate pre-activation at row n, packed column g. -/
def pre (n : Fin 8192) (g : Fin 4096) : EReal :=
  (∑ k : Fin 1024, x (ix2 n k) * wx (ix2 g k)) + (∑ k : Fin 1024, h (ix2 n k) * wh (ix2 g k)) + bx (ix1 g) + bh (ix1 g)

/-- The same four terms added in the order input product, input bias, hidden product, hidden bias. -/
theorem pre_eq_interleaved (n : Fin 8192) (g : Fin 4096) :
    (∑ k : Fin 1024, x (ix2 n k) * wx (ix2 g k)) + bx (ix1 g) + (∑ k : Fin 1024, h (ix2 n k) * wh (ix2 g k)) + bh (ix1 g)
      = pre x h wx wh bx bh n g := by
  unfold pre
  rw [add_right_comm (∑ k : Fin 1024, x (ix2 n k) * wx (ix2 g k)) (bx (ix1 g))]

/-- The new cell state at an index. -/
def cell (i : Act.Idx) : EReal :=
  Ideal.logistic (pre x h wx wh bx bh (i 0) (gcol 1024 (i 1))) * c i
    + Ideal.logistic (pre x h wx wh bx bh (i 0) (gcol 0 (i 1))) * Ideal.tanh (pre x h wx wh bx bh (i 0) (gcol 2048 (i 1)))

/-- The new hidden state at an index. -/
def hidden (i : Act.Idx) : EReal :=
  Ideal.logistic (pre x h wx wh bx bh (i 0) (gcol 3072 (i 1))) * Ideal.tanh (cell x h c wx wh bx bh i)

end Cert.CellSpec

end
-- ==== Proof.CellBlocks.lean ====
/-
  What the kernel leaves in its two result arrays: the cell step's hidden and cell states.

  The grid has 64 points; point t works on rows 128·t … 128·t + 127 of x, h and c, with the packed weights
  (converted to a narrower float format before the launch, which changes nothing on the extended reals) and the
  biases (each reshaped from [4096] to a [1, 4096] row before the launch) resident whole. So what point t writes back
  to each result is block t of one whole-array function of the arguments, and the 64 blocks tile the 8192 rows.
-/
import proofs.«168054_j9440338117029_1_alg».proof.Proof.Gen.KernelIdeal.Value
import proofs.«168054_j9440338117029_1_alg».proof.Proof.GateBlock
import proofs.«168054_j9440338117029_1_alg».proof.Proof.CellSpec
import Idealize.ShloMosaic.Lib.StableHlo.Run

noncomputable section

namespace Cert.KernelIdeal.CellBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.CellSpec

variable (m : (ℓ : Loc nD τ sig) → Buf (Elt Ideal) ℓ) (ρ : Dev nD → PrngReg)

/-! ## The argument arrays, by what they mean -/

abbrev ax (c : Dev nD) : Act.Idx → EReal := m ((c : Thread nD τ).loc main_arg0)
abbrev ah (c : Dev nD) : Act.Idx → EReal := m ((c : Thread nD τ).loc main_arg1)
abbrev ac (c : Dev nD) : Act.Idx → EReal := m ((c : Thread nD τ).loc main_arg2)
abbrev awx (c : Dev nD) : Wt.Idx → EReal := m ((c : Thread nD τ).loc main_arg3)
abbrev abx (c : Dev nD) : Bias.Idx → EReal := m ((c : Thread nD τ).loc main_arg4)
abbrev awh (c : Dev nD) : Wt.Idx → EReal := m ((c : Thread nD τ).loc main_arg5)
abbrev abh (c : Dev nD) : Bias.Idx → EReal := m ((c : Thread nD τ).loc main_arg6)

/-! ## What the operations before the launch leave in the resident windows' arrays -/

/-- The converted input weights are the input weights. -/
theorem wx_staged (c : Dev nD) : (V m c main_call0_v0 : S4096x1024.Idx → EReal) = awx m c := by
  have e : (V m c main_call0_v0 : S4096x1024.Idx → EReal)
      = truncf (F := Ideal) .bf16 (m ((c : Thread nD τ).loc main_arg3) : S4096x1024.Idx → EReal) bitsLt_bf16_f32 := by
    dsimp only [Gen.V, Gen.hostOps0]; after_results; rfl
  rw [e]; rfl

/-- The converted hidden weights are the hidden weights. -/
theorem wh_staged (c : Dev nD) : (V m c main_call0_v1 : S4096x1024.Idx → EReal) = awh m c := by
  have e : (V m c main_call0_v1 : S4096x1024.Idx → EReal)
      = truncf (F := Ideal) .bf16 (m ((c : Thread nD τ).loc main_arg5) : S4096x1024.Idx → EReal) bitsLt_bf16_f32 := by
    dsimp only [Gen.V, Gen.hostOps0]; after_results; rfl
  rw [e]; rfl

/-- A bias reshaped to a row, read at (0, g), is the bias at g. -/
theorem row_of_bias (b : S4096.Idx → EReal) (g : Fin 4096) :
    shapeCast S1x4096 b shapeCasts_S4096_S1x4096 (ix2 (0 : Fin 1) g) = b (ix1 g) := by
  refine shapeCast_apply b shapeCasts_S4096_S1x4096 _ _ ?_
  rw [Shape.rowMajor_val_one, Shape.rowMajor_val_two]
  show g.val = 0 * 4096 + g.val
  omega

/-- The input bias row at (0, g) is the input bias at g. -/
theorem bx_staged (c : Dev nD) (g : Fin 4096) : (V m c main_call0_v2 : S1x4096.Idx → EReal) (ix2 (0 : Fin 1) g) = abx m c (ix1 g) := by
  have e : (V m c main_call0_v2 : S1x4096.Idx → EReal)
      = shapeCast S1x4096 (m ((c : Thread nD τ).loc main_arg4) : S4096.Idx → EReal) shapeCasts_S4096_S1x4096 := by
    dsimp only [Gen.V, Gen.hostOps0]; after_results; rfl
  rw [e]; exact row_of_bias _ g

/-- The hidden bias row at (0, g) is the hidden bias at g. -/
theorem bh_staged (c : Dev nD) (g : Fin 4096) : (V m c main_call0_v3 : S1x4096.Idx → EReal) (ix2 (0 : Fin 1) g) = abh m c (ix1 g) := by
  have e : (V m c main_call0_v3 : S1x4096.Idx → EReal)
      = shapeCast S1x4096 (m ((c : Thread nD τ).loc main_arg6) : S4096.Idx → EReal) shapeCasts_S4096_S1x4096 := by
    dsimp only [Gen.V, Gen.hostOps0]; after_results; rfl
  rw [e]; exact row_of_bias _ g

/-! ## One point's block, over arbitrary block contents -/

theorem hz : (![0, 0] : Fin 2 → Nat) = fun _ => 0 := funext fun a => by fin_cases a <;> rfl

/-- What the body leaves in the hidden-state window's buffer, index by index. -/
theorem out7_apply (x0 x1 x2 : Vec Ideal S128x1024 .f32) (x3 x4 : Vec Ideal S4096x1024 .bf16) (x5 x6 : Vec Ideal S1x4096 .f32)
    (y : S128x1024.Idx) : out0_7 x0 x1 x2 x3 x4 x5 x6 y = Value.E7 x0 x1 x3 x4 x5 x6 x2 y := by
  unfold out0_7
  simp only [View.ld_unit_zero (S := S128x1024) hz, View.ld_unit_zero (S := S4096x1024) hz, View.ld_unit_zero (S := S1x4096) hz]
  exact Value.canon7_eq x0 x1 x3 x4 x5 x6 x2 y

/-- What the body leaves in the cell-state window's buffer, index by index. -/
theorem out8_apply (x0 x1 x2 : Vec Ideal S128x1024 .f32) (x3 x4 : Vec Ideal S4096x1024 .bf16) (x5 x6 : Vec Ideal S1x4096 .f32)
    (y : S128x1024.Idx) : out0_8 x0 x1 x2 x3 x4 x5 x6 y = Value.E8 x0 x1 x3 x4 x5 x6 x2 y := by
  unfold out0_8
  simp only [View.ld_unit_zero (S := S128x1024) hz, View.ld_unit_zero (S := S4096x1024) hz, View.ld_unit_zero (S := S1x4096) hz]
  exact Value.canon8_eq x0 x1 x3 x4 x5 x6 x2 y

section Point

variable (xb hb cb : Vec Ideal S128x1024 .f32) (wxb whb : Vec Ideal S4096x1024 .bf16) (bxb bhb : Vec Ideal S1x4096 .f32)
variable (x h cc : Act.Idx → EReal) (wx wh : Wt.Idx → EReal) (bx bh : Bias.Idx → EReal)
variable (p : Fin 128) (q : Fin 1024) (n : Fin 8192)

/-- If row p of the x and h blocks is row n of x and h, and the resident blocks are the weights and the bias rows,
    the block's pre-activation at (p, g) is the pre-activation at (n, g). -/
theorem pre_point (hx : ∀ k : Fin 1024, xb (ix2 p k) = x (ix2 n k)) (hh : ∀ k : Fin 1024, hb (ix2 p k) = h (ix2 n k))
    (hwx : ∀ j, wxb j = wx j) (hwh : ∀ j, whb j = wh j)
    (hbx : ∀ g : Fin 4096, bxb (ix2 (0 : Fin 1) g) = bx (ix1 g)) (hbh : ∀ g : Fin 4096, bhb (ix2 (0 : Fin 1) g) = bh (ix1 g))
    (g : Fin 4096) :
    k0_pay1 (F := Ideal) xb hb wxb whb bxb bhb (ix2 p g) = pre x h wx wh bx bh n g := by
  rw [GateBlock.pay1_apply]
  unfold pre
  simp only [hx, hh, hwx, hwh, hbx, hbh]

/-- The cell-state block at (p, q) is the new cell state at (n, q). -/
theorem cell_point (hx : ∀ k : Fin 1024, xb (ix2 p k) = x (ix2 n k)) (hh : ∀ k : Fin 1024, hb (ix2 p k) = h (ix2 n k))
    (hwx : ∀ j, wxb j = wx j) (hwh : ∀ j, whb j = wh j)
    (hbx : ∀ g : Fin 4096, bxb (ix2 (0 : Fin 1) g) = bx (ix1 g)) (hbh : ∀ g : Fin 4096, bhb (ix2 (0 : Fin 1) g) = bh (ix1 g))
    (hc : cb (ix2 p q) = cc (ix2 n q)) :
    Value.E8 xb hb wxb whb bxb bhb cb (ix2 p q) = cell x h cc wx wh bx bh (ix2 n q) := by
  have e0 : Value.ix8_0 (ix2 p q) = ix2 p (gcol 1024 q) := funext fun a => by match a with | ⟨0, _⟩ => rfl | ⟨1, _⟩ => rfl
  have e1 : Value.ix8_1 (ix2 p q) = ix2 p q := funext fun a => by match a with | ⟨0, _⟩ => rfl | ⟨1, _⟩ => rfl
  have e2 : Value.ix8_2 (ix2 p q) = ix2 p (gcol 0 q) := funext fun a => by match a with | ⟨0, _⟩ => rfl | ⟨1, _⟩ => rfl
  have e3 : Value.ix8_3 (ix2 p q) = ix2 p (gcol 2048 q) := funext fun a => by match a with | ⟨0, _⟩ => rfl | ⟨1, _⟩ => rfl
  show FloatOps.addf (FloatOps.mulf (FloatOps.logistic (k0_pay1 xb hb wxb whb bxb bhb (Value.ix8_0 (ix2 p q)))) (cb (Value.ix8_1 (ix2 p q))))
      (FloatOps.mulf (FloatOps.logistic (k0_pay1 xb hb wxb whb bxb bhb (Value.ix8_2 (ix2 p q)))) (FloatOps.tanh (k0_pay1 xb hb wxb whb bxb bhb (Value.ix8_3 (ix2 p q))))) = _
  rw [e0, e1, e2, e3, pre_point xb hb wxb whb bxb bhb x h wx wh bx bh p n hx hh hwx hwh hbx hbh (gcol 1024 q),
    pre_point xb hb wxb whb bxb bhb x h wx wh bx bh p n hx hh hwx hwh hbx hbh (gcol 0 q),
    pre_point xb hb wxb whb bxb bhb x h wx wh bx bh p n hx hh hwx hwh hbx hbh (gcol 2048 q), hc]
  rfl

/-- The hidden-state block at (p, q) is the new hidden state at (n, q). -/
theorem hidden_point (hx : ∀ k : Fin 1024, xb (ix2 p k) = x (ix2 n k)) (hh : ∀ k : Fin 1024, hb (ix2 p k) = h (ix2 n k))
    (hwx : ∀ j, wxb j = wx j) (hwh : ∀ j, whb j = wh j)
    (hbx : ∀ g : Fin 4096, bxb (ix2 (0 : Fin 1) g) = bx (ix1 g)) (hbh : ∀ g : Fin 4096, bhb (ix2 (0 : Fin 1) g) = bh (ix1 g))
    (hc : cb (ix2 p q) = cc (ix2 n q)) :
    Value.E7 xb hb wxb whb bxb bhb cb (ix2 p q) = hidden x h cc wx wh bx bh (ix2 n q) := by
  have e0 : Value.ix7_0 (ix2 p q) = ix2 p (gcol 3072 q) := funext fun a => by match a with | ⟨0, _⟩ => rfl | ⟨1, _⟩ => rfl
  have e1 : Value.ix7_1 (ix2 p q) = ix2 p (gcol 1024 q) := funext fun a => by match a with | ⟨0, _⟩ => rfl | ⟨1, _⟩ => rfl
  have e2 : Value.ix7_2 (ix2 p q) = ix2 p q := funext fun a => by match a with | ⟨0, _⟩ => rfl | ⟨1, _⟩ => rfl
  have e3 : Value.ix7_3 (ix2 p q) = ix2 p (gcol 0 q) := funext fun a => by match a with | ⟨0, _⟩ => rfl | ⟨1, _⟩ => rfl
  have e4 : Value.ix7_4 (ix2 p q) = ix2 p (gcol 2048 q) := funext fun a => by match a with | ⟨0, _⟩ => rfl | ⟨1, _⟩ => rfl
  show FloatOps.mulf (FloatOps.logistic (k0_pay1 xb hb wxb whb bxb bhb (Value.ix7_0 (ix2 p q))))
      (FloatOps.tanh (FloatOps.addf (FloatOps.mulf (FloatOps.logistic (k0_pay1 xb hb wxb whb bxb bhb (Value.ix7_1 (ix2 p q)))) (cb (Value.ix7_2 (ix2 p q))))
        (FloatOps.mulf (FloatOps.logistic (k0_pay1 xb hb wxb whb bxb bhb (Value.ix7_3 (ix2 p q)))) (FloatOps.tanh (k0_pay1 xb hb wxb whb bxb bhb (Value.ix7_4 (ix2 p q))))))) = _
  rw [e0, e1, e2, e3, e4, pre_point xb hb wxb whb bxb bhb x h wx wh bx bh p n hx hh hwx hwh hbx hbh (gcol 3072 q),
    pre_point xb hb wxb whb bxb bhb x h wx wh bx bh p n hx hh hwx hwh hbx hbh (gcol 1024 q),
    pre_point xb hb wxb whb bxb bhb x h wx wh bx bh p n hx hh hwx hwh hbx hbh (gcol 0 q),
    pre_point xb hb wxb whb bxb bhb x h wx wh bx bh p n hx hh hwx hwh hbx hbh (gcol 2048 q), hc]
  rfl

end Point

/-! ## The windows' blocks at a point -/

/-- The printed index maps, decided over the 64 points: the row-tiled windows (x, h, c and the two results) sit at
    block row t, block column 0; the resident windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row p of point t's block is row 128·t + p of the array. -/
abbrev row (t : Fin cfg0.N) (p : Fin 128) : Fin 8192 :=
  ⟨t.val * 128 + p.val, by have := t.isLt; have hN : cfg0.N = 64 := N_0; have := p.isLt; omega⟩

theorem x_block (c : Dev nD) (t : Fin cfg0.N) (p : Fin 128) (k : Fin 1024) :
    iblk m c 0 t (ix2 p k) = ax m c (ix2 (row t p) k) := by
  show V m c main_arg0 (((cfg0.win 0).blk t).view.emb (ix2 p k)) = _
  rw [V_main_arg0]
  obtain ⟨⟨e0, e1⟩, -⟩ := idx_facts t
  refine congrArg (m ((c : Thread nD τ).loc main_arg0)) (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * k.val = k.val; omega

theorem h_block (c : Dev nD) (t : Fin cfg0.N) (p : Fin 128) (k : Fin 1024) :
    iblk m c 1 t (ix2 p k) = ah m c (ix2 (row t p) k) := by
  show V m c main_arg1 (((cfg0.win 1).blk t).view.emb (ix2 p k)) = _
  rw [V_main_arg1]
  obtain ⟨-, ⟨e0, e1⟩, -⟩ := idx_facts t
  refine congrArg (m ((c : Thread nD τ).loc main_arg1)) (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * k.val = k.val; omega

theorem c_block (c : Dev nD) (t : Fin cfg0.N) (p : Fin 128) (k : Fin 1024) :
    iblk m c 2 t (ix2 p k) = ac m c (ix2 (row t p) k) := by
  show V m c main_arg2 (((cfg0.win 2).blk t).view.emb (ix2 p k)) = _
  rw [V_main_arg2]
  obtain ⟨-, -, ⟨e0, e1⟩, -⟩ := idx_facts t
  refine congrArg (m ((c : Thread nD τ).loc main_arg2)) (funext fun a => Fin.ext ?_)
  match a with
  | ⟨0, _⟩ => show win0_2.index t (0 : Fin 2) * 128 + 1 * p.val = t.val * 128 + p.val; omega
  | ⟨1, _⟩ => show win0_2.index t (1 : Fin 2) * 1024 + 1 * k.val = k.val; omega

theorem wx_block (c : Dev nD) (t : Fin cfg0.N) (j : S4096x1024.Idx) : iblk m c 3 t j = awx m c j := by
  show (V m c main_call0_v0 : S4096x1024.Idx → EReal) (((cfg0.win 3).blk t).view.emb j) = _
  rw [wx_staged]
  obtain ⟨-, -, -, ⟨e0, e1⟩, -⟩ := idx_facts t
  refine congrArg (m ((c : Thread nD τ).loc main_arg3)) (funext fun a => Fin.ext ?_)
  match a with
  | ⟨0, _⟩ => show win0_3.index t (0 : Fin 2) * 4096 + 1 * (j 0).val = (j 0).val; omega
  | ⟨1, _⟩ => show win0_3.index t (1 : Fin 2) * 1024 + 1 * (j 1).val = (j 1).val; omega

theorem wh_block (c : Dev nD) (t : Fin cfg0.N) (j : S4096x1024.Idx) : iblk m c 4 t j = awh m c j := by
  show (V m c main_call0_v1 : S4096x1024.Idx → EReal) (((cfg0.win 4).blk t).view.emb j) = _
  rw [wh_staged]
  obtain ⟨-, -, -, -, ⟨e0, e1⟩, -⟩ := idx_facts t
  refine congrArg (m ((c : Thread nD τ).loc main_arg5)) (funext fun a => Fin.ext ?_)
  match a with
  | ⟨0, _⟩ => show win0_4.index t (0 : Fin 2) * 4096 + 1 * (j 0).val = (j 0).val; omega
  | ⟨1, _⟩ => show win0_4.index t (1 : Fin 2) * 1024 + 1 * (j 1).val = (j 1).val; omega

theorem bx_block (c : Dev nD) (t : Fin cfg0.N) (g : Fin 4096) : iblk m c 5 t (ix2 (0 : Fin 1) g) = abx m c (ix1 g) := by
  show (V m c main_call0_v2 : S1x4096.Idx → EReal) (((cfg0.win 5).blk t).view.emb (ix2 (0 : Fin 1) g)) = _
  obtain ⟨-, -, -, -, -, ⟨e0, e1⟩, -⟩ := idx_facts t
  have he : ((cfg0.win 5).blk t).view.emb (ix2 (0 : Fin 1) g) = ix2 (0 : Fin 1) g := funext fun a => Fin.ext (by
    match a with
    | ⟨0, _⟩ => show win0_5.index t (0 : Fin 2) * 1 + 1 * 0 = 0; omega
    | ⟨1, _⟩ => show win0_5.index t (1 : Fin 2) * 4096 + 1 * g.val = g.val; omega)
  rw [he]
  exact bx_staged m c g

theorem bh_block (c : Dev nD) (t : Fin cfg0.N) (g : Fin 4096) : iblk m c 6 t (ix2 (0 : Fin 1) g) = abh m c (ix1 g) := by
  show (V m c main_call0_v3 : S1x4096.Idx → EReal) (((cfg0.win 6).blk t).view.emb (ix2 (0 : Fin 1) g)) = _
  obtain ⟨-, -, -, -, -, -, ⟨e0, e1⟩, -⟩ := idx_facts t
  have he : ((cfg0.win 6).blk t).view.emb (ix2 (0 : Fin 1) g) = ix2 (0 : Fin 1) g := funext fun a => Fin.ext (by
    match a with
    | ⟨0, _⟩ => show win0_6.index t (0 : Fin 2) * 1 + 1 * 0 = 0; omega
    | ⟨1, _⟩ => show win0_6.index t (1 : Fin 2) * 4096 + 1 * g.val = g.val; omega)
  rw [he]
  exact bh_staged m c g

/-! ## What each point writes back, the cover, and the result arrays -/

/-- Point t writes back block t of the new hidden state. -/
theorem flushed7_eq (c : Dev nD) (t : Fin cfg0.N) :
    (dats m 0 c).flushed 7 t = ((cfg0.win 7).blk t).view.read (Elt Ideal) (hidden (ax m c) (ah m c) (ac m c) (awx m c) (awh m c) (abx m c) (abh m c)) := by
  rw [Value.flushed7]
  refine funext fun (j : S128x1024.Idx) => ?_
  obtain ⟨p, q, rfl⟩ : ∃ (p : Fin 128) (q : Fin 1024), j = ix2 p q := ⟨j 0, j 1, eq_ix2 (n0 := 128) (n1 := 1024) j⟩
  show out0_7 (iblk m c 0 t) (iblk m c 1 t) (iblk m c 2 t) (iblk m c 3 t) (iblk m c 4 t) (iblk m c 5 t) (iblk m c 6 t) (ix2 p q)
      = hidden (ax m c) (ah m c) (ac m c) (awx m c) (awh m c) (abx m c) (abh m c) (((cfg0.win 7).blk t).view.emb (ix2 p q))
  have hemb : ((cfg0.win 7).blk t).view.emb (ix2 p q) = ix2 (row t p) q := funext fun a => Fin.ext (by
    obtain ⟨-, -, -, -, -, -, -, ⟨e0, e1⟩, -⟩ := idx_facts t
    match a with
    | ⟨0, _⟩ => show win0_7.index t (0 : Fin 2) * 128 + 1 * p.val = t.val * 128 + p.val; omega
    | ⟨1, _⟩ => show win0_7.index t (1 : Fin 2) * 1024 + 1 * q.val = q.val; omega)
  rw [hemb]
  refine (out7_apply (iblk m c 0 t) (iblk m c 1 t) (iblk m c 2 t) (iblk m c 3 t) (iblk m c 4 t) (iblk m c 5 t) (iblk m c 6 t) (ix2 p q)).trans ?_
  exact hidden_point (iblk m c 0 t) (iblk m c 1 t) (iblk m c 2 t) (iblk m c 3 t) (iblk m c 4 t) (iblk m c 5 t) (iblk m c 6 t)
    (ax m c) (ah m c) (ac m c) (awx m c) (awh m c) (abx m c) (abh m c) p q (row t p)
    (x_block m c t p) (h_block m c t p) (wx_block m c t) (wh_block m c t) (bx_block m c t) (bh_block m c t) (c_block m c t p q)

/-- Point t writes back block t of the new cell state. -/
theorem flushed8_eq (c : Dev nD) (t : Fin cfg0.N) :
    (dats m 0 c).flushed 8 t = ((cfg0.win 8).blk t).view.read (Elt Ideal) (cell (ax m c) (ah m c) (ac m c) (awx m c) (awh m c) (abx m c) (abh m c)) := by
  rw [Value.flushed8]
  refine funext fun (j : S128x1024.Idx) => ?_
  obtain ⟨p, q, rfl⟩ : ∃ (p : Fin 128) (q : Fin 1024), j = ix2 p q := ⟨j 0, j 1, eq_ix2 (n0 := 128) (n1 := 1024) j⟩
  show out0_8 (iblk m c 0 t) (iblk m c 1 t) (iblk m c 2 t) (iblk m c 3 t) (iblk m c 4 t) (iblk m c 5 t) (iblk m c 6 t) (ix2 p q)
      = cell (ax m c) (ah m c) (ac m c) (awx m c) (awh m c) (abx m c) (abh m c) (((cfg0.win 8).blk t).view.emb (ix2 p q))
  have hemb : ((cfg0.win 8).blk t).view.emb (ix2 p q) = ix2 (row t p) q := funext fun a => Fin.ext (by
    obtain ⟨-, -, -, -, -, -, -, -, ⟨e0, e1⟩⟩ := idx_facts t
    match a with
    | ⟨0, _⟩ => show win0_8.index t (0 : Fin 2) * 128 + 1 * p.val = t.val * 128 + p.val; omega
    | ⟨1, _⟩ => show win0_8.index t (1 : Fin 2) * 1024 + 1 * q.val = q.val; omega)
  rw [hemb]
  refine (out8_apply (iblk m c 0 t) (iblk m c 1 t) (iblk m c 2 t) (iblk m c 3 t) (iblk m c 4 t) (iblk m c 5 t) (iblk m c 6 t) (ix2 p q)).trans ?_
  exact cell_point (iblk m c 0 t) (iblk m c 1 t) (iblk m c 2 t) (iblk m c 3 t) (iblk m c 4 t) (iblk m c 5 t) (iblk m c 6 t)
    (ax m c) (ah m c) (ac m c) (awx m c) (awh m c) (abx m c) (abh m c) p q (row t p)
    (x_block m c t p) (h_block m c t p) (wx_block m c t) (wh_block m c t) (bx_block m c t) (bh_block m c t) (c_block m c t p q)

/-- An index of the hidden-state array is in point t's block iff each coordinate is in the block's range. -/
theorem mem_blk7 (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v0_0).slice (win0_7.rect t)).set ↔ _
  rw [View.set_slice_whole, Rect.mem_set_unit]
  exact Iff.rfl

/-- The same for the cell-state array. -/
theorem mem_blk8 (t : Fin cfg0.N) (i : S8192x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v0_1).slice (win0_8.rect t)).set ↔ _
  rw [View.set_slice_whole, Rect.mem_set_unit]
  exact Iff.rfl

/-- Row r lies in the block of point r / 128: the 64 blocks tile the hidden-state array. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 64 := N_0
  have ht : (i 0).val / 128 < cfg0.N := by omega
  obtain ⟨-, -, -, -, -, -, -, ⟨e0, e1⟩, -⟩ := idx_facts ⟨(i 0).val / 128, ht⟩
  refine ⟨⟨(i 0).val / 128, ht⟩, flush0_7 _, ?_⟩
  rw [mem_blk7]
  intro a
  match a with
  | ⟨0, _⟩ =>
    show win0_7.index ⟨(i 0).val / 128, ht⟩ (0 : Fin 2) * 128 ≤ (i 0).val ∧ (i 0).val < win0_7.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, ht⟩ (1 : Fin 2) * 1024 ≤ (i 1).val ∧ (i 1).val < win0_7.index ⟨(i 0).val / 128, ht⟩ (1 : Fin 2) * 1024 + 1024
    rw [e1]; omega

/-- The 64 blocks tile the cell-state array. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 64 := N_0
  have ht : (i 0).val / 128 < cfg0.N := by omega
  obtain ⟨-, -, -, -, -, -, -, -, ⟨e0, e1⟩⟩ := idx_facts ⟨(i 0).val / 128, ht⟩
  refine ⟨⟨(i 0).val / 128, ht⟩, flush0_8 _, ?_⟩
  rw [mem_blk8]
  intro a
  match a with
  | ⟨0, _⟩ =>
    show win0_8.index ⟨(i 0).val / 128, ht⟩ (0 : Fin 2) * 128 ≤ (i 0).val ∧ (i 0).val < win0_8.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, ht⟩ (1 : Fin 2) * 1024 ≤ (i 1).val ∧ (i 1).val < win0_8.index ⟨(i 0).val / 128, ht⟩ (1 : Fin 2) * 1024 + 1024
    rw [e1]; omega

/-- After the run the first result array holds the new hidden state. -/
theorem final7 (c : Dev nD) : (dats m 0 c).arrAt 7 cfg0.N = hidden (ax m c) (ah m c) (ac m c) (awx m c) (awh m c) (abx m c) (abh m c) :=
  (dats m 0 c).arrAt_eq_of_cover 7 (hidden (ax m c) (ah m c) (ac m c) (awx m c) (awh m c) (abx m c) (abh m c)) (fun t _ => flushed7_eq m c t) cover7

/-- After the run the second result array holds the new cell state. -/
theorem final8 (c : Dev nD) : (dats m 0 c).arrAt 8 cfg0.N = cell (ax m c) (ah m c) (ac m c) (awx m c) (awh m c) (abx m c) (abh m c) :=
  (dats m 0 c).arrAt_eq_of_cover 8 (cell (ax m c) (ah m c) (ac m c) (awx m c) (awh m c) (abx m c) (abh m c)) (fun t _ => flushed8_eq m c t) cover8

/-- The kernel's run: it terminates with the two results at the cell step's hidden and cell states of the
    arguments, the arguments unchanged. -/
theorem run : θ_run defs (onTc (τ := τ) (main (F := Ideal))) ⟨m, fun _ => 0, ρ⟩ fun r => ∀ c : Dev nD,
      r.2.mem ((c : Thread nD τ).loc main_v0_0) = hidden (ax m c) (ah m c) (ac m c) (awx m c) (awh m c) (abx m c) (abh m c)
      ∧ r.2.mem ((c : Thread nD τ).loc main_v0_1) = cell (ax m c) (ah m c) (ac m c) (awx m c) (awh m c) (abx m c) (abh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.CellBlocks

end
-- ==== Proof.RefCell.lean ====
/-
  The reference's two results, read at an index, are the cell step's hidden and cell states.

  The reference forms the packed pre-activations as (x·wxᵀ + bx) + h·whᵀ + bh, the biases broadcast down the rows,
  cuts the four gates out as column ranges, and spells each logistic as 1 / (1 + e^(-z)). On the extended reals each
  matrix product is the plain sum of products, the four terms may be added in any order, and the spelled-out
  quotient is the logistic function itself (the literal 1.0 is the real one).
-/
import proofs.«168054_j9440338117029_1_alg».proof.Proof.Gen.ReferenceIdeal.Read
import proofs.«168054_j9440338117029_1_alg».proof.Proof.CellSpec
import Idealize.ShloMosaic.Lib.IdealHost

noncomputable section

namespace Cert.ReferenceIdeal.RefCell

open Cert.ReferenceIdeal Cert.ReferenceIdeal.Gen Cert.ReferenceIdeal.Read Idealize.ShloMosaic Idealize.ShloMosaic.ValueIdx
open Cert.CellSpec

variable (x0 x1 x2 : Vec Ideal S8192x1024 .f32) (x3 x5 : Vec Ideal S4096x1024 .f32) (x4 x6 : Vec Ideal S4096 .f32)

/-- The packed pre-activations at (n, g): the four terms of `pre`, added in the reference's order. -/
theorem gates_apply (j : S8192x4096.Idx) :
    val_main_v8 (F := Ideal) x0 x1 x3 x4 x5 x6 j = pre x0 x1 x3 x5 x4 x6 (j 0) (j 1) := by
  rw [val_main_v8_apply, val_main_v5_apply, val_main_v3_apply, val_main_v0_apply, val_main_v4_apply, val_main_v2_apply,
    val_main_v1_apply, val_main_v7_apply, val_main_v6_apply]
  have el0 : ∀ k : Fin 1024, lidx_main_v0 j k = ix2 (j 0) k := fun k => funext fun a => by
    match a with | ⟨0, _⟩ => rfl | ⟨1, _⟩ => rfl
  have er0 : ∀ k : Fin 1024, ridx_main_v0 j k = ix2 (j 1) k := fun k => funext fun a => by
    match a with | ⟨0, _⟩ => rfl | ⟨1, _⟩ => rfl
  have el4 : ∀ k : Fin 1024, lidx_main_v4 j k = ix2 (j 0) k := fun k => funext fun a => by
    match a with | ⟨0, _⟩ => rfl | ⟨1, _⟩ => rfl
  have er4 : ∀ k : Fin 1024, ridx_main_v4 j k = ix2 (j 1) k := fun k => funext fun a => by
    match a with | ⟨0, _⟩ => rfl | ⟨1, _⟩ => rfl
  have eb4 : idx_main_v1 (idx_main_v2 j) = ix1 (j 1) := funext fun a => by match a with | ⟨0, _⟩ => rfl
  have eb6 : idx_main_v6 (idx_main_v7 j) = ix1 (j 1) := funext fun a => by match a with | ⟨0, _⟩ => rfl
  simp only [el0, er0, el4, er4, eb4, eb6]
  exact pre_eq_interleaved x0 x1 x3 x5 x4 x6 (j 0) (j 1)

/-- The reference's spelling of the logistic function, 1 / (1 + e^(-z)) with the literal 1.0, is the logistic
    function. -/
theorem logistic_spelled (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [Ideal.ofBits_one_f32]
  rfl

/-- The input gate's column range starts at 0. -/
theorem input_gate (i : S8192x1024.Idx) :
    val_main_v18 (F := Ideal) x0 x1 x3 x4 x5 x6 i = Ideal.logistic (pre x0 x1 x3 x5 x4 x6 (i 0) (gcol 0 (i 1))) := by
  rw [val_main_v18_apply, val_main_v17_apply, val_main_cst_0_apply, val_main_v16_apply, val_main_v15_apply, val_main_cst_apply,
    val_main_v14_apply, val_main_v13_apply, val_main_v9_apply, gates_apply, logistic_spelled]
  rfl

/-- The forget gate's column range starts at 1024. -/
theorem forget_gate (i : S8192x1024.Idx) :
    val_main_v24 (F := Ideal) x0 x1 x3 x4 x5 x6 i = Ideal.logistic (pre x0 x1 x3 x5 x4 x6 (i 0) (gcol 1024 (i 1))) := by
  rw [val_main_v24_apply, val_main_v23_apply, val_main_cst_2_apply, val_main_v22_apply, val_main_v21_apply, val_main_cst_1_apply,
    val_main_v20_apply, val_main_v19_apply, val_main_v10_apply, gates_apply, logistic_spelled]
  exact congrArg (fun g => Ideal.logistic (pre x0 x1 x3 x5 x4 x6 (i 0) g)) (Fin.ext (Nat.add_comm _ _))

/-- The cell gate's column range starts at 2048. -/
theorem cell_gate (i : S8192x1024.Idx) :
    val_main_v25 (F := Ideal) x0 x1 x3 x4 x5 x6 i = Ideal.tanh (pre x0 x1 x3 x5 x4 x6 (i 0) (gcol 2048 (i 1))) := by
  rw [val_main_v25_apply, val_main_v11_apply, gates_apply]
  exact congrArg (fun g => Ideal.tanh (pre x0 x1 x3 x5 x4 x6 (i 0) g)) (Fin.ext (Nat.add_comm _ _))

/-- The output gate's column range starts at 3072. -/
theorem output_gate (i : S8192x1024.Idx) :
    val_main_v31 (F := Ideal) x0 x1 x3 x4 x5 x6 i = Ideal.logistic (pre x0 x1 x3 x5 x4 x6 (i 0) (gcol 3072 (i 1))) := by
  rw [val_main_v31_apply, val_main_v30_apply, val_main_cst_4_apply, val_main_v29_apply, val_main_v28_apply, val_main_cst_3_apply,
    val_main_v27_apply, val_main_v26_apply, val_main_v12_apply, gates_apply, logistic_spelled]
  exact congrArg (fun g => Ideal.logistic (pre x0 x1 x3 x5 x4 x6 (i 0) g)) (Fin.ext (Nat.add_comm _ _))

/-- The reference's second result is the new cell state. -/
theorem cell_eq : val_main_v34 (F := Ideal) x0 x1 x2 x3 x4 x5 x6 = cell x0 x1 x2 x3 x5 x4 x6 := by
  funext i
  rw [val_main_v34_apply, val_main_v32_apply, val_main_v33_apply, forget_gate, input_gate, cell_gate]
  rfl

/-- The reference's first result is the new hidden state. -/
theorem hidden_eq : val_main_v36 (F := Ideal) x0 x1 x2 x3 x4 x5 x6 = hidden x0 x1 x2 x3 x5 x4 x6 := by
  funext i
  rw [val_main_v36_apply, val_main_v35_apply, output_gate, cell_eq]
  rfl

end Cert.ReferenceIdeal.RefCell

end
-- ==== Proof.lean ====
/-
  One step of an LSTM cell, fused in one kernel, against its plain reference.

  With x, h, c : [8192, 1024], packed gate weights wx, wh : [4096, 1024] and biases bx, bh : [4096], both programs
  form the packed pre-activations  Σ_k x[n,k]·wx[g,k] + Σ_k h[n,k]·wh[g,k] + bx[g] + bh[g]  (the kernel for 128 rows
  at a time, on operands converted to a narrower float format, adding the two products first; the reference for all
  rows at once, adding each bias right after its product), cut the four gates out as column ranges, and return
  hidden = σ(o)·tanh(cell) and cell = σ(f)·c + σ(i)·tanh(g). On the extended reals the format changes are the
  identity, each matrix product is the plain sum of products, the four terms may be added in any order, and the
  kernel's logistic operation is the reference's 1 / (1 + e^(-z)): both programs compute the one function of
  Proof/CellSpec.lean. The kernel side is Proof/GateBlock.lean (one block's pre-activations) and Proof/CellBlocks.lean
  (blocks to arrays); the reference side is Proof/RefCell.lean. No finiteness of the inputs is used.
-/
import proofs.«168054_j9440338117029_1_alg».proof.Defs
import proofs.«168054_j9440338117029_1_alg».proof.Proof.Gen.Kernel
import proofs.«168054_j9440338117029_1_alg».proof.Proof.Gen.Kernel.Skeleton
import proofs.«168054_j9440338117029_1_alg».proof.Proof.Gen.Kernel.Launch
import proofs.«168054_j9440338117029_1_alg».proof.Proof.Gen.Kernel.Points
import proofs.«168054_j9440338117029_1_alg».proof.Proof.Gen.Kernel.Frame
import proofs.«168054_j9440338117029_1_alg».proof.Proof.Gen.KernelIdeal
import proofs.«168054_j9440338117029_1_alg».proof.Proof.Gen.KernelIdeal.Skeleton
import proofs.«168054_j9440338117029_1_alg».proof.Proof.Gen.KernelIdeal.Launch
import proofs.«168054_j9440338117029_1_alg».proof.Proof.Gen.KernelIdeal.Points
import proofs.«168054_j9440338117029_1_alg».proof.Proof.Gen.KernelIdeal.Frame
import proofs.«168054_j9440338117029_1_alg».proof.Proof.Gen.ReferenceIdeal
import proofs.«168054_j9440338117029_1_alg».proof.Proof.Gen.Pre_finite_inputs
import proofs.«168054_j9440338117029_1_alg».proof.Proof.Gen.KernelIdeal.Value
import proofs.«168054_j9440338117029_1_alg».proof.Proof.Gen.ReferenceIdeal.Run
import proofs.«168054_j9440338117029_1_alg».proof.Proof.Gen.ReferenceIdeal.Read
import proofs.«168054_j9440338117029_1_alg».proof.Proof.CellBlocks
import proofs.«168054_j9440338117029_1_alg».proof.Proof.RefCell
import Idealize.ShloMosaic.Adequacy
import Idealize.ShloMosaic.Init

noncomputable section

namespace Cert.Proof

open Idealize.ShloMosaic Idealize.SL.Sem

/-- The kernel as printed runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both runs end with the cell step's hidden and cell states of arguments that agree. -/
theorem algebraic : Cert.algebraic_KernelIdeal_ReferenceIdeal := by
  intro m ρ m' ρ' _ hagree
  refine ⟨_, _, Cert.KernelIdeal.CellBlocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.ReferenceIdeal.RefCell.hidden_eq,
      (hagree c).1, (hagree c).2.1, (hagree c).2.2.1, (hagree c).2.2.2.1, (hagree c).2.2.2.2.1, (hagree c).2.2.2.2.2.1,
      (hagree c).2.2.2.2.2.2]
  · rw [Cert.ReferenceIdeal.Read.val_main_v34_eq, Cert.ReferenceIdeal.RefCell.cell_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
